-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x1600000 32) (main_arg2 : FVec F S1600000 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩
abbrev S1600512 : Shape := ⟨1, ![1600512]⟩
abbrev S12504x128 : Shape := ⟨2, ![12504, 128]⟩
abbrev S4168x128 : Shape := ⟨2, ![4168, 128]⟩
abbrev S1x1600000 : Shape := ⟨2, ![1, 1600000]⟩
abbrev S50000 : Shape := ⟨1, ![50000]⟩
abbrev S1650000 : Shape := ⟨1, ![1650000]⟩
abbrev S1650000x1 : Shape := ⟨2, ![1650000, 1]⟩
abbrev S1650000x128 : Shape := ⟨2, ![1650000, 128]⟩
abbrev S1x128 : Shape := ⟨2, ![1, 128]⟩
abbrev S5000x128 : Shape := ⟨2, ![5000, 128]⟩

abbrev nBuf : Space → Nat
  | .hbm => 95
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S_, .f32⟩
  | .hbm, ⟨7, _⟩ => ⟨S1600512, .f32⟩
  | .hbm, ⟨8, _⟩ => ⟨S12504x128, .f32⟩
  | .hbm, ⟨9, _⟩ => ⟨S12504x128, .f32⟩
  | .hbm, ⟨10, _⟩ => ⟨S1600512, .f32⟩
  | .hbm, ⟨11, _⟩ => ⟨S1600000, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S50000, .i32⟩
  | .hbm, ⟨17, _⟩ => ⟨S1650000, .i32⟩
  | .hbm, ⟨18, _⟩ => ⟨S1650000, .i32⟩
  | .hbm, ⟨19, _⟩ => ⟨S_, .f32⟩
  | .hbm, ⟨20, _⟩ => ⟨S50000, .f32⟩
  | .hbm, ⟨21, _⟩ => ⟨S1650000, .f32⟩
  | .hbm, ⟨22, _⟩ => ⟨S_, .f32⟩
  | .hbm, ⟨23, _⟩ => ⟨S50000, .f32⟩
  | .hbm, ⟨24, _⟩ => ⟨S1650000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .i1⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000, .f32⟩
  | .hbm, ⟨60, _⟩ => ⟨S1650000, .f32⟩
  | .hbm, ⟨61, _⟩ => ⟨S_, .i32⟩
  | .hbm, ⟨62, _⟩ => ⟨S1650000, .i32⟩
  | .hbm, ⟨63, _⟩ => ⟨S1650000, .i1⟩
  | .hbm, ⟨64, _⟩ => ⟨S_, .i32⟩
  | .hbm, ⟨65, _⟩ => ⟨S1650000, .i32⟩
  | .hbm, ⟨66, _⟩ => ⟨S1650000, .i32⟩
  | .hbm, ⟨67, _⟩ => ⟨S1650000, .i32⟩
  | .hbm, ⟨68, _⟩ => ⟨S1650000x1, .i32⟩
  | .hbm, ⟨69, _⟩ => ⟨S1650000x128, .f32⟩
  | .hbm, ⟨70, _⟩ => ⟨S1650000x1, .f32⟩
  | .hbm, ⟨71, _⟩ => ⟨S1650000x128, .f32⟩
  | .hbm, ⟨72, _⟩ => ⟨S1650000x128, .f32⟩
  | .hbm, ⟨73, _⟩ => ⟨S_, .f32⟩
  | .hbm, ⟨74, _⟩ => ⟨S50000x128, .f32⟩
  | .hbm, ⟨75, _⟩ => ⟨S1650000x1, .i32⟩
  | .hbm, ⟨76, _⟩ => ⟨S50000x128, .f32⟩
  | .hbm, ⟨77, _⟩ => ⟨S_, .i32⟩
  | .hbm, ⟨78, _⟩ => ⟨S1650000, .i32⟩
  | .hbm, ⟨79, _⟩ => ⟨S1650000, .i1⟩
  | .hbm, ⟨80, _⟩ => ⟨S_, .i32⟩
  | .hbm, ⟨81, _⟩ => ⟨S1650000, .i32⟩
  | .hbm, ⟨82, _⟩ => ⟨S1650000, .i32⟩
  | .hbm, ⟨83, _⟩ => ⟨S1650000, .i32⟩
  | .hbm, ⟨84, _⟩ => ⟨S1650000x1, .i32⟩
  | .hbm, ⟨85, _⟩ => ⟨S1650000x128, .f32⟩
  | .hbm, ⟨86, _⟩ => ⟨S1650000x1, .f32⟩
  | .hbm, ⟨87, _⟩ => ⟨S1650000x128, .f32⟩
  | .hbm, ⟨88, _⟩ => ⟨S1650000x128, .f32⟩
  | .hbm, ⟨89, _⟩ => ⟨S_, .f32⟩
  | .hbm, ⟨90, _⟩ => ⟨S50000x128, .f32⟩
  | .hbm, ⟨91, _⟩ => ⟨S1650000x1, .i32⟩
  | .hbm, ⟨92, _⟩ => ⟨S50000x128, .f32⟩
  | .hbm, ⟨93, _⟩ => ⟨S1x128, .f32⟩
  | .hbm, ⟨94, _⟩ => ⟨S50000x128, .f32⟩
  | .local _ .vmem, ⟨0, _⟩ => ⟨S4168x128, .f32⟩
  | .local _ .vmem, ⟨1, _⟩ => ⟨S4168x128, .f32⟩
  | .local _ .vmem, ⟨2, _⟩ => ⟨S4168x128, .f32⟩
  | .local _ .vmem, ⟨3, _⟩ => ⟨S4168x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4168x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4168x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  pads_S1600000_S1600512_05120 : S1600000.Pads (![0] : Fin 1 → Nat) ![512] ![0] S1600512
  h_S_ : 0 < S_.numel
  shapeCasts_S1600512_S12504x128 : S1600512.ShapeCasts S12504x128
  inb_S4168x128_S4168x128_0_0 : ∀ a, (![0, 0] : Fin 2 → Nat) a + S4168x128.size a ≤ S4168x128.size a
  h_S4168x128 : 0 < S4168x128.numel
  shapeCasts_S4168x128_S4168x128 : S4168x128.ShapeCasts S4168x128
  shapeCasts_S12504x128_S1600512 : S12504x128.ShapeCasts S1600512
  slices_S1600512_S1600000_0 : S1600512.Slices ![0] S1600000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4168x128.size a ≤ S12504x128.size a
  hwx0_0 : ∀ i : grid0.Coords, EltTy.bits .f32 = 32 ∨ (Rect.block (s := S12504x128) S4168x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4168x128.size a ≤ S12504x128.size a
  hwx0_1 : ∀ i : grid0.Coords, EltTy.bits .f32 = 32 ∨ (Rect.block (s := S12504x128) S4168x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v1) S4168x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4168x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v65) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S50000 : Shape := ⟨1, ![50000]⟩
abbrev S1650000 : Shape := ⟨1, ![1650000]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1600000, .f32⟩
  | .hbm, ⟨9, _⟩ => ⟨S1600000, .f32⟩
  | .hbm, ⟨10, _⟩ => ⟨S_, .f32⟩
  | .hbm, ⟨11, _⟩ => ⟨S1600000, .f32⟩
  | .hbm, ⟨12, _⟩ => ⟨S1600000, .f32⟩
  | .hbm, ⟨13, _⟩ => ⟨S1600000, .f32⟩
  | .hbm, ⟨14, _⟩ => ⟨S1600000, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S50000, .i32⟩
  | .hbm, ⟨20, _⟩ => ⟨S1650000, .i32⟩
  | .hbm, ⟨21, _⟩ => ⟨S1650000, .i32⟩
  | .hbm, ⟨22, _⟩ => ⟨S_, .f32⟩
  | .hbm, ⟨23, _⟩ => ⟨S50000, .f32⟩
  | .hbm, ⟨24, _⟩ => ⟨S1650000, .f32⟩
  | .hbm, ⟨25, _⟩ => ⟨S_, .f32⟩
  | .hbm, ⟨26, _⟩ => ⟨S50000, .f32⟩
  | .hbm, ⟨27, _⟩ => ⟨S1650000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .i1⟩
  | .hbm, ⟨39, _⟩ => ⟨S50000, .f32⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .i32⟩
  | .hbm, ⟨45, _⟩ => ⟨S1650000, .i32⟩
  | .hbm, ⟨46, _⟩ => ⟨S1650000, .i1⟩
  | .hbm, ⟨47, _⟩ => ⟨S_, .i32⟩
  | .hbm, ⟨48, _⟩ => ⟨S1650000, .i32⟩
  | .hbm, ⟨49, _⟩ => ⟨S1650000, .i32⟩
  | .hbm, ⟨50, _⟩ => ⟨S1650000, .i32⟩
  | .hbm, ⟨51, _⟩ => ⟨S1650000x1, .i32⟩
  | .hbm, ⟨52, _⟩ => ⟨S1650000, .f32⟩
  | .hbm, ⟨53, _⟩ => ⟨S1650000, .f32⟩
  | .hbm, ⟨54, _⟩ => ⟨S_, .i32⟩
  | .hbm, ⟨55, _⟩ => ⟨S1650000, .i32⟩
  | .hbm, ⟨56, _⟩ => ⟨S1650000, .i1⟩
  | .hbm, ⟨57, _⟩ => ⟨S_, .i32⟩
  | .hbm, ⟨58, _⟩ => ⟨S1650000, .i32⟩
  | .hbm, ⟨59, _⟩ => ⟨S1650000, .i32⟩
  | .hbm, ⟨60, _⟩ => ⟨S1650000, .i32⟩
  | .hbm, ⟨61, _⟩ => ⟨S1650000x1, .i32⟩
  | .hbm, ⟨62, _⟩ => ⟨S1650000, .f32⟩
  | .hbm, ⟨63, _⟩ => ⟨S1650000, .f32⟩
  | .hbm, ⟨64, _⟩ => ⟨S_, .i32⟩
  | .hbm, ⟨65, _⟩ => ⟨S1650000, .i32⟩
  | .hbm, ⟨66, _⟩ => ⟨S1650000, .i1⟩
  | .hbm, ⟨67, _⟩ => ⟨S_, .i32⟩
  | .hbm, ⟨68, _⟩ => ⟨S1650000, .i32⟩
  | .hbm, ⟨69, _⟩ => ⟨S1650000, .i32⟩
  | .hbm, ⟨70, _⟩ => ⟨S1650000, .i32⟩
  | .hbm, ⟨71, _⟩ => ⟨S1650000x1, .i32⟩
  | .hbm, ⟨72, _⟩ => ⟨S1650000x128, .f32⟩
  | .hbm, ⟨73, _⟩ => ⟨S1650000x1, .f32⟩
  | .hbm, ⟨74, _⟩ => ⟨S1650000x128, .f32⟩
  | .hbm, ⟨75, _⟩ => ⟨S1650000x128, .f32⟩
  | .hbm, ⟨76, _⟩ => ⟨S_, .f32⟩
  | .hbm, ⟨77, _⟩ => ⟨S50000x128, .f32⟩
  | .hbm, ⟨78, _⟩ => ⟨S1650000x1, .i32⟩
  | .hbm, ⟨79, _⟩ => ⟨S50000x128, .f32⟩
  | .hbm, ⟨80, _⟩ => ⟨S_, .i32⟩
  | .hbm, ⟨81, _⟩ => ⟨S1650000, .i32⟩
  | .hbm, ⟨82, _⟩ => ⟨S1650000, .i1⟩
  | .hbm, ⟨83, _⟩ => ⟨S_, .i32⟩
  | .hbm, ⟨84, _⟩ => ⟨S1650000, .i32⟩
  | .hbm, ⟨85, _⟩ => ⟨S1650000, .i32⟩
  | .hbm, ⟨86, _⟩ => ⟨S1650000, .i32⟩
  | .hbm, ⟨87, _⟩ => ⟨S1650000x1, .i32⟩
  | .hbm, ⟨88, _⟩ => ⟨S1650000x128, .f32⟩
  | .hbm, ⟨89, _⟩ => ⟨S1650000x1, .f32⟩
  | .hbm, ⟨90, _⟩ => ⟨S1650000x128, .f32⟩
  | .hbm, ⟨91, _⟩ => ⟨S1650000x128, .f32⟩
  | .hbm, ⟨92, _⟩ => ⟨S_, .f32⟩
  | .hbm, ⟨93, _⟩ => ⟨S50000x128, .f32⟩
  | .hbm, ⟨94, _⟩ => ⟨S1650000x1, .i32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_7 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_v31 : Ref sig .tc := ⟨.hbm, 56, rfl⟩
abbrev main_c_9 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_c_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_c_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_15 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute, stated once over literal shapes and importing no program.

  A graph has 50000 nodes and 1600000 weighted edges; a self loop of weight 1 is added at every node, so 1650000 edges in
  all. With `w` the edge weights, `deg[n]` is the sum of `w` over the edges that END at `n`, `dinv = deg^(-1/2)` where
  `deg > 0` and `0` elsewhere, and each edge gets the coefficient `dinv[start] * w * dinv[end]`. One propagation step
  sends the feature matrix `x` to the matrix whose row `n` is the sum, over the edges ending at `n`, of the edge's
  coefficient times row `start` of `x`. The result is two such steps followed by an affine layer `X W + b`.

  The one place the two programs differ before the affine layer is the edge weights: one clamps them to [-2, 5], the
  other adds to the raw weights the difference between the clamped and the raw ones. `propagate` therefore takes the
  edge weights as a parameter.
-/
import Idealize.ShloMosaic.Lib.StableHlo
import Idealize.ShloMosaic.PureOps

noncomputable section

namespace Cert.Spec

open Idealize.ShloMosaic

/-! ## Shapes -/

abbrev SNx : Shape := ⟨2, ![50000, 128]⟩
abbrev SE2 : Shape := ⟨2, ![2, 1600000]⟩
abbrev SE : Shape := ⟨1, ![1600000]⟩
abbrev SW : Shape := ⟨2, ![128, 128]⟩
abbrev SB : Shape := ⟨1, ![128]⟩
abbrev S0 : Shape := ⟨0, ![]⟩
abbrev S1E : Shape := ⟨2, ![1, 1600000]⟩
abbrev SN : Shape := ⟨1, ![50000]⟩
abbrev SA : Shape := ⟨1, ![1650000]⟩
abbrev SA1 : Shape := ⟨2, ![1650000, 1]⟩
abbrev SAx : Shape := ⟨2, ![1650000, 128]⟩
abbrev S1B : Shape := ⟨2, ![1, 128]⟩

/-! ## The shape relations the operations take -/

theorem slice0 : SE2.Slices ![0, 0] S1E := by decide
theorem slice1 : SE2.Slices ![1, 0] S1E := by decide
theorem cast1E : S1E.ShapeCasts SE := by decide
theorem conc : Shape.Concatenates [SE, SN] SA 0 := by decide
theorem b0N : S0.BroadcastsInDim SN (![] : Fin 0 → Fin SN.rank) := by decide
theorem b0E : S0.BroadcastsInDim SE (![] : Fin 0 → Fin SE.rank) := by decide
theorem b0A : S0.BroadcastsInDim SA (![] : Fin 0 → Fin SA.rank) := by decide
theorem bA1 : SA.BroadcastsInDim SA1 (![0] : Fin 1 → Fin SA1.rank) := by decide
theorem bA1x : SA1.BroadcastsInDim SAx (![0, 1] : Fin 2 → Fin SAx.rank) := by decide
theorem b0Nx : S0.BroadcastsInDim SNx (![] : Fin 0 → Fin SNx.rank) := by decide
theorem bB : SB.BroadcastsInDim S1B (![1] : Fin 1 → Fin S1B.rank) := by decide
theorem b1BNx : S1B.BroadcastsInDim SNx (![0, 1] : Fin 2 → Fin SNx.rank) := by decide

/-- Summing a vector of per-edge numbers into per-node numbers. -/
def scN : ScatterDims SN SA1 SA where
  updateWindowDims := []
  insertedWindowDims := [0]
  scatterDimsToOperandDims := [0]
  indexVectorDim := 1
  wf := by decide
/-- Reading a per-node number at each edge's endpoint. -/
def gaN : GatherDims SN SA1 SA where
  offsetDims := []
  collapsedSliceDims := [0]
  operandBatchingDims := []
  startIndicesBatchingDims := []
  startIndexMap := [0]
  indexVectorDim := 1
  sliceSizes := ![1]
  wf := by decide
/-- Reading a node's feature row at each edge's endpoint. -/
def gaNx : GatherDims SNx SA1 SAx where
  offsetDims := [1]
  collapsedSliceDims := [0]
  operandBatchingDims := []
  startIndicesBatchingDims := []
  startIndexMap := [0]
  indexVectorDim := 1
  sliceSizes := ![1, 128]
  wf := by decide
/-- Summing per-edge feature rows into per-node feature rows. -/
def scNx : ScatterDims SNx SA1 SAx where
  updateWindowDims := [1]
  insertedWindowDims := [0]
  scatterDimsToOperandDims := [0]
  indexVectorDim := 1
  wf := by decide
/-- The affine layer's product: rows of the features against columns of the weights. -/
def dotNx : DotDims SNx SW SNx where
  lhsContracting := [1]
  rhsContracting := [0]
  lhsNonContracting := [0]
  rhsNonContracting := [1]
  lhsBatch := []
  rhsBatch := []
  wf := by decide

variable {F : FTy → Type} [FloatOps F]

/-! ## The edges -/

/-- Row `r` of the edge list (row 0: where each edge starts, row 1: where it ends) followed by the nodes
    0, 1, …, 49999, the self loops' endpoints. -/
def endpoints (r : Fin 2 → Nat) (h : SE2.Slices r S1E) (ei : IVec SE2 32) : IVec SA 32 :=
  concatenate SA 0 [⟨SE, shapeCast _ (extractStridedSlice S1E r ei h) cast1E⟩, ⟨SN, iotaInDim SN 32 0⟩] conc

/-- Where each of the 1650000 edges starts. -/
def starts (ei : IVec SE2 32) : IVec SA 32 := endpoints ![0, 0] slice0 ei
/-- Where each of the 1650000 edges ends. -/
def ends (ei : IVec SE2 32) : IVec SA 32 := endpoints ![1, 0] slice1 ei

/-- A negative node number counts from the end: 50000 is added to it. -/
def fromEnd (v : IVec SA 32) : IVec SA 32 :=
  select (cmpi .slt v (broadcastInDim SA ![] b0A (constantI S0 32 0#32)))
    (addi v (broadcastInDim SA ![] b0A (constantI S0 32 50000#32))) v

/-- A vector over the edges as a one-column matrix. -/
def column {α : Type} (v : SA.Idx → α) : SA1.Idx → α := broadcastInDim SA1 ![0] bA1 v

/-- The edge weights followed by the self loops' weight 1. -/
def weights (ew : FVec F SE .f32) : FVec F SA .f32 :=
  concatenate SA 0 [⟨SE, ew⟩, ⟨SN, broadcastInDim SN ![] b0N (constant S0 .f32 0x3F800000#32)⟩] conc

/-! ## The normalisation -/

/-- Zero at every node. -/
def zeroN : FVec F SN .f32 := broadcastInDim SN ![] b0N (constant S0 .f32 0x00000000#32)

/-- A node's degree: the weights of the edges ending there, summed. -/
def deg (ei : IVec SE2 32) (ew : FVec F SE .f32) : FVec F SN .f32 :=
  Host.scatterAdd scN zeroN (column (ends ei)) (weights ew)

/-- `deg^(-1/2)` where the degree is positive, zero elsewhere. -/
def dinv (ei : IVec SE2 32) (ew : FVec F SE .f32) : FVec F SN .f32 :=
  select (cmpf .ogt (deg ei ew) zeroN)
    (Host.rsqrt (select (cmpf .ogt (deg ei ew) zeroN) (deg ei ew)
      (broadcastInDim SN ![] b0N (constant S0 .f32 0x3F800000#32))))
    (broadcastInDim SN ![] b0N (constant S0 .f32 0x00000000#32))

/-- An edge's coefficient: `dinv` at its start, times its weight, times `dinv` at its end. -/
def coeff (ei : IVec SE2 32) (ew : FVec F SE .f32) : FVec F SA .f32 :=
  mulf (mulf (Host.gather gaN (dinv ei ew) (column (fromEnd (starts ei)))) (weights ew))
    (Host.gather gaN (dinv ei ew) (column (fromEnd (ends ei))))

/-! ## Propagation -/

/-- One step: row `n` of the result is the sum, over the edges ending at `n`, of the edge's coefficient times the
    row of `x` at the edge's start. -/
def step (ei : IVec SE2 32) (ew : FVec F SE .f32) (x : FVec F SNx .f32) : FVec F SNx .f32 :=
  Host.scatterAdd scNx (broadcastInDim SNx ![] b0Nx (constant S0 .f32 0x00000000#32)) (column (ends ei))
    (mulf (Host.gather gaNx x (column (fromEnd (starts ei))))
      (broadcastInDim SAx ![0, 1] bA1x (column (coeff ei ew))))

/-- Two steps. -/
def propagate (x : FVec F SNx .f32) (ei : IVec SE2 32) (ew : FVec F SE .f32) : FVec F SNx .f32 :=
  step ei ew (step ei ew x)

/-! ## The edge weights' clamp, and the affine layer -/

/-- The weights clamped to [-2, 5]. -/
def clamped (e : FVec F SE .f32) : FVec F SE .f32 :=
  minimumf (broadcastInDim SE ![] b0E (constant S0 .f32 0x40A00000#32))
    (maximumf (broadcastInDim SE ![] b0E (constant S0 .f32 0xC0000000#32)) e)

/-- The raw weights plus the difference between the clamped and the raw ones. -/
def reclamped (e : FVec F SE .f32) : FVec F SE .f32 := addf e (subf (clamped e) e)

/-- `X W + b`, the bias added to every row. -/
def affine (X : FVec F SNx .f32) (W : FVec F SW .f32) (b : FVec F SB .f32) : FVec F SNx .f32 :=
  addf (Host.dotGeneral dotNx none X W) (broadcastInDim SNx ![0, 1] b1BNx (broadcastInDim S1B ![1] bB b))

/-- The whole computation, with the edge weights re-clamped. -/
def result (x : FVec F SNx .f32) (ei : IVec SE2 32) (e : FVec F SE .f32) (W : FVec F SW .f32) (b : FVec F SB .f32) :
    FVec F SNx .f32 :=
  affine (propagate x ei (reclamped e)) W b

end Cert.Spec

end
-- ==== Proof.KHost.lean ====
/-
  What the two kernel regions find in their windows' arrays: the host operations before each region, read from the launch
  memory (first region) and from the first region's exit (second region).

  The first region clamps a 12504 x 128 matrix: the edge weights padded with 512 zeros and laid out row by row. The second
  region multiplies the twice-propagated features by the weight matrix and adds the bias row; the features it finds are the
  specification's `propagate` of the argument arrays and of what the first region left, un-padded.
-/
import proofs.«126264_j20074677141980_1_alg».proof.Proof.Gen.KernelIdeal.Frame
import proofs.«126264_j20074677141980_1_alg».proof.Proof.Spec

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The first region's input: the edge weights, 512 zeros appended, as 12504 rows of 128. -/
theorem clamp_input (c : Dev nD) :
    V3 m ρ c main_v1 = shapeCast S12504x128 (pad S1600512 ![0] ![512] ![0] (m ((c.tc : Thread nD τ).loc main_arg2))
      (sitofp .f32 (constantI S_ 32 0#32)) pads_S1600000_S1600512_05120 h_S_) shapeCasts_S1600512_S12504x128 := by
  show StableHlo.after hostOps0_2 (StableHlo.after hostOps0_1 (StableHlo.after hostOps0 (W0 m ρ c))) (Proc.devRef .tc main_v1) = _
  after_results
  rfl

/-- No host operation before the first region writes an argument, and the region writes none. -/
theorem exit0_arg0 (c : Dev nD) : W4 m ρ c (Proc.devRef .tc main_arg0) = m ((c.tc : Thread nD τ).loc main_arg0) := by
  rw [W4_of_ne m ρ c main_arg0 (by decide)]
  show StableHlo.after hostOps0_2 (StableHlo.after hostOps0_1 (StableHlo.after hostOps0 (W0 m ρ c))) (Proc.devRef .tc main_arg0) = _
  after_results
theorem exit0_arg1 (c : Dev nD) : W4 m ρ c (Proc.devRef .tc main_arg1) = m ((c.tc : Thread nD τ).loc main_arg1) := by
  rw [W4_of_ne m ρ c main_arg1 (by decide)]
  show StableHlo.after hostOps0_2 (StableHlo.after hostOps0_1 (StableHlo.after hostOps0 (W0 m ρ c))) (Proc.devRef .tc main_arg1) = _
  after_results
theorem exit0_arg3 (c : Dev nD) : W4 m ρ c (Proc.devRef .tc main_arg3) = m ((c.tc : Thread nD τ).loc main_arg3) := by
  rw [W4_of_ne m ρ c main_arg3 (by decide)]
  show StableHlo.after hostOps0_2 (StableHlo.after hostOps0_1 (StableHlo.after hostOps0 (W0 m ρ c))) (Proc.devRef .tc main_arg3) = _
  after_results
theorem exit0_arg4 (c : Dev nD) : W4 m ρ c (Proc.devRef .tc main_arg4) = m ((c.tc : Thread nD τ).loc main_arg4) := by
  rw [W4_of_ne m ρ c main_arg4 (by decide)]
  show StableHlo.after hostOps0_2 (StableHlo.after hostOps0_1 (StableHlo.after hostOps0 (W0 m ρ c))) (Proc.devRef .tc main_arg4) = _
  after_results

/-- What the first region left, read as the second stretch reads it: laid out flat, the 512 padding entries cut off. -/
def clampedFlat (c : Dev nD) : FVec F S1600000 .f32 :=
  extractStridedSlice S1600000 ![0] (shapeCast S1600512 (W4 m ρ c (Proc.devRef .tc main_v2)) shapeCasts_S12504x128_S1600512)
    slices_S1600512_S1600000_0

set_option maxHeartbeats 40000000 in
/-- The second region's feature matrix: two propagation steps from the argument features over the argument edges, the
    edge weights being what the first region left. -/
theorem features_at_exit0 (c : Dev nD) :
    V9 m ρ c main_v65 = Cert.Spec.propagate (W4 m ρ c (Proc.devRef .tc main_arg0)) (W4 m ρ c (Proc.devRef .tc main_arg1))
      (clampedFlat m ρ c) := by
  show StableHlo.after hostOps1_4 (StableHlo.after hostOps1_3 (StableHlo.after hostOps1_2 (StableHlo.after hostOps1_1
    (StableHlo.after hostOps1 (W4 m ρ c))))) (Proc.devRef .tc main_v65) = _
  after_results_simp
  rfl

theorem features (c : Dev nD) :
    V9 m ρ c main_v65 = Cert.Spec.propagate (m ((c.tc : Thread nD τ).loc main_arg0)) (m ((c.tc : Thread nD τ).loc main_arg1))
      (clampedFlat m ρ c) := by
  rw [features_at_exit0, exit0_arg0, exit0_arg1]

/-- The second region's weight matrix is the argument. -/
theorem weights (c : Dev nD) : V9 m ρ c main_arg3 = m ((c.tc : Thread nD τ).loc main_arg3) := by
  refine Eq.trans ?_ (exit0_arg3 m ρ c)
  show StableHlo.after hostOps1_4 (StableHlo.after hostOps1_3 (StableHlo.after hostOps1_2 (StableHlo.after hostOps1_1
    (StableHlo.after hostOps1 (W4 m ρ c))))) (Proc.devRef .tc main_arg3) = _
  after_results_simp

/-- The second region's bias row is the argument bias as a one-row matrix. -/
theorem bias (c : Dev nD) :
    V9 m ρ c main_v66 = shapeCast S1x128 (m ((c.tc : Thread nD τ).loc main_arg4)) shapeCasts_S128_S1x128 := by
  rw [← exit0_arg4 m ρ c]
  show StableHlo.after hostOps1_4 (StableHlo.after hostOps1_3 (StableHlo.after hostOps1_2 (StableHlo.after hostOps1_1
    (StableHlo.after hostOps1 (W4 m ρ c))))) (Proc.devRef .tc main_v66) = _
  after_results_simp
  rfl

end Cert.KernelIdeal.Host

end
-- ==== Proof.ClampRegion.lean ====
/-
  The first kernel region, read as one function of the array it finds: every entry clamped to [-2, 5].

  The region walks the 12504 x 128 matrix in three blocks of 4168 rows. At each point the body loads the input block,
  clamps it entry by entry and stores the result as the output block; input and output blocks sit at the same rows, the
  three blocks tile the matrix, so after the run the output array is the clamp of the input array.
-/
import proofs.«126264_j20074677141980_1_alg».proof.Proof.Gen.KernelIdeal.Frame
import Idealize.ShloMosaic.Lib.Pipeline.Value

set_option maxRecDepth 16384

noncomputable section

namespace Cert.KernelIdeal.ClampRegion

open Cert.KernelIdeal Cert.KernelIdeal.Gen Idealize.ShloMosaic Idealize.ShloMosaic.TcCoe Idealize.SL.Sem
open Idealize.ShloMosaic.Pipeline (Dat)

variable {F : FTy → Type} [FloatOps F]

/-- Every entry of an array of any shape clamped to [-2, 5]: the larger of it and -2, then the smaller of that and 5. -/
def clampAll (S : Shape) (a : FVec F S .f32) : FVec F S .f32 :=
  minimumf (broadcast S (Scalar.ofBits .f32 0x40A00000#32)) (maximumf (broadcast S (Scalar.ofBits .f32 0xC0000000#32)) a)

/-- The body's stored value is the clamp of its loaded block. -/
theorem payload_eq (x0 : Vec F S4168x128 .f32) : k0_pay1 x0 = clampAll S4168x128 x0 := by
  show minimumf _ (maximumf _ (shapeCast S4168x128 x0 shapeCasts_S4168x128_S4168x128)) = _
  rw [shapeCast_self]
  rfl

theorem zero_offsets : (![0, 0] : Fin 2 → Nat) = fun _ => 0 := funext fun a => by fin_cases a <;> rfl

variable (V : (c : Dev nD) → (b : Ref sig .tc) → Buf (Elt F) ((c : Thread nD τ).loc b))

/-- The printed index maps over the three grid points: input and output blocks sit at the same block row, block column 0,
    and the block rows are 0, 1, 2. -/
theorem index_facts : ∀ t : Fin cfg0.N, win0_0.index t (0 : Fin 2) = win0_1.index t (0 : Fin 2)
    ∧ win0_0.index t (1 : Fin 2) = win0_1.index t (1 : Fin 2)
    ∧ win0_1.index t (0 : Fin 2) ≤ 2 ∧ win0_1.index t (1 : Fin 2) = 0 :=
  (by decide +kernel : ∀ t : Fin grid0.N, _)

/-- Every block row is some point's. -/
theorem index_onto : ∀ q : Fin 3, ∃ t : Fin cfg0.N, win0_1.index t = ![q.val, 0] :=
  (by decide +kernel : ∀ q : Fin 3, ∃ t : Fin grid0.N, win0_1.index t = ![q.val, 0])

/-- What point `t` writes back is block `t` of the clamp of the whole input array. -/
theorem flushed_eq (c : Dev nD) (t : Fin cfg0.N) :
    (dat0 V c).flushed 1 t = ((cfg0.win 1).blk t).view.read (Elt F) (clampAll S12504x128 (V c main_v1)) := by
  show (cfg0.win 1).cut (grid0.coords t) ((dat0 V c).after 1 t) = _
  rw [after0_1]
  unfold out0_1
  rw [View.canon_unit_zero zero_offsets]
  simp only [View.ld_unit_zero (S := S4168x128) zero_offsets]
  rw [payload_eq]
  obtain ⟨e0, e1, -, -⟩ := index_facts t
  funext j
  show FloatOps.minimumf (Scalar.ofBits .f32 0x40A00000#32) (FloatOps.maximumf (Scalar.ofBits .f32 0xC0000000#32) (V c main_v1 (((cfg0.win 0).blk t).view.emb j)))
    = FloatOps.minimumf (Scalar.ofBits .f32 0x40A00000#32) (FloatOps.maximumf (Scalar.ofBits .f32 0xC0000000#32) (V c main_v1 (((cfg0.win 1).blk t).view.emb j)))
  have h0 : ((cfg0.win 0).blk t).view.emb j = ((cfg0.win 1).blk t).view.emb j := by
    funext a; apply Fin.ext
    match a with
    | ⟨0, _⟩ => show win0_0.index t (0 : Fin 2) * 4168 + 1 * (j 0).val = win0_1.index t (0 : Fin 2) * 4168 + 1 * (j 0).val; omega
    | ⟨1, _⟩ => show win0_0.index t (1 : Fin 2) * 128 + 1 * (j 1).val = win0_1.index t (1 : Fin 2) * 128 + 1 * (j 1).val; omega
  rw [h0]

/-- An index of the output array is in point `t`'s block iff each coordinate is in the block's range on its axis. -/
theorem mem_block (t : Fin cfg0.N) (i : S12504x128.Idx) :
    i ∈ ((cfg0.win 1).blk t).view.set ↔ ∀ a : Fin 2, win0_1.index t a * S4168x128.size a ≤ (i a).val ∧ (i a).val < win0_1.index t a * S4168x128.size a + S4168x128.size a := by
  show i ∈ ((View.whole main_v2).slice (win0_1.rect t)).set ↔ _
  rw [View.set_slice_whole, Rect.mem_set_unit]
  exact Iff.rfl

/-- The three blocks cover the output array: row `r` is in block `r / 4168`. -/
theorem covered (i : S12504x128.Idx) :
    ∃ t : Fin cfg0.N, (cfg0.win 1).flush t = true ∧ i ∈ ((cfg0.win 1).blk t).view.set := by
  have hi0 : (i 0).val < 12504 := (i 0).isLt
  have hi1 : (i 1).val < 128 := (i 1).isLt
  obtain ⟨t, ht⟩ := index_onto ⟨(i 0).val / 4168, by omega⟩
  have q0 : win0_1.index t (0 : Fin 2) = (i 0).val / 4168 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 4168 ≤ (i 0).val ∧ (i 0).val < win0_1.index t (0 : Fin 2) * 4168 + 4168; omega
  | ⟨1, _⟩ => show win0_1.index t (1 : Fin 2) * 128 ≤ (i 1).val ∧ (i 1).val < win0_1.index t (1 : Fin 2) * 128 + 128; omega

/-- After the region's run the output array is the clamp of the input array as the region found it. -/
theorem output_eq (c : Dev nD) : (dat0 V c).arrAt 1 cfg0.N = clampAll S12504x128 (V c main_v1) :=
  (dat0 V c).arrAt_eq_of_cover 1 (clampAll S12504x128 (V c main_v1)) (fun t _ => flushed_eq V c t) covered

end Cert.KernelIdeal.ClampRegion

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Affine.lean ====
/-
  The affine layer by coordinates. Entry (p, q) of `X W + b` is the sum over k below 128 of `X[p, k] * W[k, q]`, plus
  `b[q]`. Both programs' spellings of it read to that sum: a product whose dimension numbers contract the left operand's
  axis 1 with the right operand's axis 0, no batch axis, whatever the number of rows; a bias kept as a one-row matrix and
  laid along the rows, or kept as a vector and laid along axis 1.
-/
import Idealize.ShloMosaic.PureOps.Ideal.Laws
import Idealize.ShloMosaic.Lib.ValueIdx
import Idealize.ShloMosaic.Lib.Pipeline.Value
import Idealize.ShloMosaic.Lib.KernelVsHost
import proofs.«126264_j20074677141980_1_alg».proof.Proof.Spec
import proofs.«126264_j20074677141980_1_alg».proof.Proof.LibContraction

noncomputable section

open scoped BigOperators

namespace Cert.Spec

open Idealize.ShloMosaic Idealize.ShloMosaic.ValueIdx Cert.Lib.Contraction

/-- Entry (p, q) of rows-times-columns plus a bias row. -/
def entry {M : Nat} (X : (⟨2, ![M, 128]⟩ : Shape).Idx → EReal) (W : SW.Idx → EReal) (b2 : S1B.Idx → EReal)
    (p : Fin M) (q : Fin 128) : EReal :=
  (∑ k : Fin 128, X (ix2 p k) * W (ix2 k q)) + b2 (ix2 (0 : Fin 1) q)

/-- Rows times columns plus a bias row, as an array of `M` rows. -/
def rowsByCols {M : Nat} (X : (⟨2, ![M, 128]⟩ : Shape).Idx → EReal) (W : SW.Idx → EReal) (b2 : S1B.Idx → EReal) :
    (⟨2, ![M, 128]⟩ : Shape).Idx → EReal :=
  fun i => entry X W b2 (i 0) (i 1)

theorem rowsByCols_ix2 {M : Nat} (X : (⟨2, ![M, 128]⟩ : Shape).Idx → EReal) (W : SW.Idx → EReal) (b2 : S1B.Idx → EReal)
    (p : Fin M) (q : Fin 128) : rowsByCols X W b2 (ix2 p q) = entry X W b2 p q := rfl

/-- A contraction of the left operand's columns with the right operand's rows, read at (p, q): the sum over k below
    128 of the products `l[p, k] * r[k, q]`. -/
theorem contraction_apply {M : Nat} (d : DotDims ⟨2, ![M, 128]⟩ SW ⟨2, ![M, 128]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, 128]⟩ : Shape).Idx → EReal) (r : SW.Idx → EReal) (p : Fin M) (q : Fin 128) :
    ∑ k : d.contr.Idx, l (d.lhsIdx (ix2 p q) k) * r (d.rhsIdx (ix2 p q) k) = ∑ k : Fin 128, l (ix2 p k) * r (ix2 k q) := by
  rw [sum_contr d hlc 128 rfl]
  refine Finset.sum_congr rfl fun i _ => ?_
  have hl : d.lhsIdx (ix2 p q) ((contrFin d hlc 128 rfl).symm i) = ix2 p i :=
    Shape.idx_ext₂ (lhs_free d hlb hln (ix2 p q) _ Nat.zero_lt_two) (lhs_contracted d hlc 128 rfl (ix2 p q) i)
  have hr : d.rhsIdx (ix2 p q) ((contrFin d hlc 128 rfl).symm i) = ix2 i q :=
    Shape.idx_ext₂ (rhs_contracted d hlc hrc 128 rfl (ix2 p q) i) (rhs_free d hlb hrb hln hrn (ix2 p q) _ Nat.one_lt_two)
  rw [hl, hr]

/-- The specification's affine layer at (p, q). -/
theorem affine_apply (X : FVec Ideal SNx .f32) (W : FVec Ideal SW .f32) (b : FVec Ideal SB .f32) (p : Fin 50000) (q : Fin 128) :
    affine X W b (ix2 p q) = (∑ k : Fin 128, X (ix2 p k) * W (ix2 k q)) + b (ix1 q) := by
  unfold affine
  show FloatOps.dotGeneral dotNx none _ X W (ix2 p q) + _ = _
  rw [Ideal.dotGeneral_apply, contraction_apply dotNx rfl rfl rfl rfl rfl rfl X W p q,
    broadcastInDim_oneRow_apply b1BNx _ p q]
  refine congrArg (_ + ·) ?_
  refine broadcastInDim_apply ![1] bB b (ix2 (0 : Fin 1) q) (ix1 q) fun a => ?_
  match a with
  | ⟨0, _⟩ => rfl

/-- The affine layer is rows-times-columns plus the bias laid out as one row. -/
theorem affine_eq_rowsByCols (X : FVec Ideal SNx .f32) (W : FVec Ideal SW .f32) (b : FVec Ideal SB .f32)
    (h : SB.ShapeCasts S1B) : affine X W b = rowsByCols X W (shapeCast S1B b h) := by
  funext i
  obtain ⟨p, q, rfl⟩ : ∃ (p : Fin 50000) (q : Fin 128), i = ix2 p q := ⟨i 0, i 1, eq_ix2 i⟩
  rw [affine_apply, rowsByCols_ix2]
  unfold entry
  refine congrArg (_ + ·) (Eq.symm ?_)
  refine shapeCast_apply b h (ix2 (0 : Fin 1) q) (ix1 q) ?_
  rw [Shape.rowMajor_val_two, Shape.rowMajor_val_one]
  show q.val = 0 * 128 + q.val
  omega

end Cert.Spec

end
-- ==== Proof.MatmulRegion.lean ====
/-
  The second kernel region, read as one function of the arrays it finds: the feature matrix times the weight matrix, plus
  the bias row laid along every row.

  The region walks the 50000 x 128 feature matrix in ten blocks of 5000 rows; the weight matrix and the one-row bias are
  each one block, the same at every point. At a point the body multiplies the feature block by the weights (both first
  rounded to a narrower format, which changes nothing over the extended reals), adds the bias row to every row and stores
  the result as the output block at the same rows. Entry (p, q) of that block is the sum over k of
  `x[p, k] * w[k, q]` plus `b[0, q]`, which reads only row p of the feature block: so the output array, whose ten blocks
  tile it, is rows-times-columns of the whole feature matrix plus the bias.
-/
import proofs.«126264_j20074677141980_1_alg».proof.Proof.Gen.KernelIdeal.Frame
import proofs.«126264_j20074677141980_1_alg».proof.Proof.Affine

set_option maxRecDepth 16384

noncomputable section

open scoped BigOperators

namespace Cert.KernelIdeal.MatmulRegion

open Cert.KernelIdeal Cert.KernelIdeal.Gen Idealize.ShloMosaic Idealize.ShloMosaic.TcCoe Idealize.SL.Sem
open Idealize.ShloMosaic.Pipeline (Dat)
open Idealize.ShloMosaic.ValueIdx

/-- The body's stored value at (p, q): the products of row p of the feature block with column q of the weights, summed,
    plus entry q of the bias row. -/
theorem payload_apply (x0 : FVec Ideal S5000x128 .f32) (x1 : FVec Ideal S128x128 .f32) (x2 : FVec Ideal S1x128 .f32)
    (p : Fin 5000) (q : Fin 128) :
    k1_pay1 (F := Ideal) x0 x1 x2 (ix2 p q) = Cert.Spec.entry x0 x1 x2 p q := by
  have hk : k1_pay1 (F := Ideal) x0 x1 x2
      = addf (F := Ideal)
          (matmul (F := Ideal) dot_S5000x128_S128x128_S5000x128_1_0_0_1_n_n none
            (truncf (F := Ideal) .bf16 (shapeCast S5000x128 x0 shapeCasts_S5000x128_S5000x128) bitsLt_bf16_f32)
            (truncf (F := Ideal) .bf16 x1 bitsLt_bf16_f32) (constant (F := Ideal) S5000x128 .f32 0x00000000#32))
          (broadcastTo S5000x128 (shapeCast S1x128 x2 shapeCasts_S1x128_S1x128) broadcasts_S1x128_S5000x128) := rfl
  rw [hk, shapeCast_self, shapeCast_self]
  refine (addf_apply _ _ (ix2 p q)).trans ?_
  unfold Cert.Spec.entry
  refine congrArg₂ (· + ·) ?_ ?_
  · refine (Ideal.matmul_constant_zero_apply _ none _ _ (ix2 p q)).trans ?_
    exact Cert.Spec.contraction_apply (M := 5000) dot_S5000x128_S128x128_S5000x128_1_0_0_1_n_n rfl rfl rfl rfl rfl rfl x0 x1 p q
  · refine broadcastTo_apply x2 broadcasts_S1x128_S5000x128 (ix2 p q) (ix2 (0 : Fin 1) q) fun a => ?_
    match a with
    | ⟨0, _⟩ => rfl
    | ⟨1, _⟩ => rfl

theorem zero_offsets : (![0, 0] : Fin 2 → Nat) = fun _ => 0 := funext fun a => by fin_cases a <;> rfl

variable (V : (c : Dev nD) → (b : Ref sig .tc) → Buf (Elt Ideal) ((c : Thread nD τ).loc b))

/-- The blocks the body loads at a point, and the arrays they are blocks of, each at its literal shape. -/
abbrev xblk (c : Dev nD) (t : Fin cfg1.N) : Vec Ideal S5000x128 .f32 := iblk1 V c 0 t
abbrev wblk (c : Dev nD) (t : Fin cfg1.N) : Vec Ideal S128x128 .f32 := iblk1 V c 1 t
abbrev bblk (c : Dev nD) (t : Fin cfg1.N) : Vec Ideal S1x128 .f32 := iblk1 V c 2 t
abbrev xarr (c : Dev nD) : Vec Ideal S50000x128 .f32 := V c main_v65
abbrev warr (c : Dev nD) : Vec Ideal S128x128 .f32 := V c main_arg3
abbrev barr (c : Dev nD) : Vec Ideal S1x128 .f32 := V c main_v66

/-- The printed index maps over the ten grid points: the feature and output blocks sit at the same block row, which is
    at most 9; every other block index is 0. -/
theorem index_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- Every block row is some point's. -/
theorem index_onto : ∀ q : Fin 10, ∃ t : Fin cfg1.N, win1_3.index t = ![q.val, 0] :=
  (by decide +kernel : ∀ q : Fin 10, ∃ t : Fin grid1.N, win1_3.index t = ![q.val, 0])

/-- An entry of the feature block is the feature matrix's entry at the block's rows. -/
theorem xblk_apply (c : Dev nD) (t : Fin cfg1.N) (y : S5000x128.Idx) (i : S50000x128.Idx)
    (h0 : (i 0).val = win1_0.index t (0 : Fin 2) * 5000 + (y 0).val)
    (h1 : (i 1).val = win1_0.index t (1 : Fin 2) * 128 + (y 1).val) : xblk V c t y = xarr V c i := by
  show V c main_v65 (((cfg1.win 0).blk t).view.emb y) = V c main_v65 i
  refine congrArg (V c main_v65) ?_
  funext a; apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The weight block is the weight matrix. -/
theorem wblk_apply (c : Dev nD) (t : Fin cfg1.N) (y : S128x128.Idx) (i : S128x128.Idx)
    (h0 : (i 0).val = win1_1.index t (0 : Fin 2) * 128 + (y 0).val)
    (h1 : (i 1).val = win1_1.index t (1 : Fin 2) * 128 + (y 1).val) : wblk V c t y = warr V c i := by
  show V c main_arg3 (((cfg1.win 1).blk t).view.emb y) = V c main_arg3 i
  refine congrArg (V c main_arg3) ?_
  funext a; apply Fin.ext
  match a with
  | ⟨0, _⟩ => show win1_1.index t (0 : Fin 2) * 128 + 1 * (y 0).val = (i 0).val; omega
  | ⟨1, _⟩ => show win1_1.index t (1 : Fin 2) * 128 + 1 * (y 1).val = (i 1).val; omega

/-- The bias block is the bias row. -/
theorem bblk_apply (c : Dev nD) (t : Fin cfg1.N) (y : S1x128.Idx) (i : S1x128.Idx)
    (h0 : (i 0).val = win1_2.index t (0 : Fin 2) * 1 + (y 0).val)
    (h1 : (i 1).val = win1_2.index t (1 : Fin 2) * 128 + (y 1).val) : bblk V c t y = barr V c i := by
  show V c main_v66 (((cfg1.win 2).blk t).view.emb y) = V c main_v66 i
  refine congrArg (V c main_v66) ?_
  funext a; apply Fin.ext
  match a with
  | ⟨0, _⟩ => show win1_2.index t (0 : Fin 2) * 1 + 1 * (y 0).val = (i 0).val; omega
  | ⟨1, _⟩ => show win1_2.index t (1 : Fin 2) * 128 + 1 * (y 1).val = (i 1).val; omega

/-- At a point, the stored block's entry `y` is rows-times-columns of the whole arrays at the array index `i` that the
    output block's entry `y` sits at. -/
theorem point_eq (c : Dev nD) (t : Fin cfg1.N) (y : S5000x128.Idx) (i : S50000x128.Idx)
    (h0 : (i 0).val = win1_3.index t (0 : Fin 2) * 5000 + (y 0).val)
    (h1 : (i 1).val = win1_3.index t (1 : Fin 2) * 128 + (y 1).val) :
    k1_pay1 (F := Ideal) (xblk V c t) (wblk V c t) (bblk V c t) y
      = Cert.Spec.rowsByCols (xarr V c) (warr V c) (barr V c) i := by
  obtain ⟨f0, f1, f2, f3, f4, f5, f6, f7⟩ := index_facts t
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have h0' : r.val = win1_3.index t (0 : Fin 2) * 5000 + p.val := h0
  have h1' : s.val = win1_3.index t (1 : Fin 2) * 128 + q.val := h1
  have hs : s = q := Fin.ext (by omega)
  subst hs
  rw [payload_apply, Cert.Spec.rowsByCols_ix2]
  unfold Cert.Spec.entry
  refine congrArg₂ (· + ·) (Finset.sum_congr rfl fun k _ => ?_) ?_
  · rw [xblk_apply V c t (ix2 p k) (ix2 r k) (by show r.val = _ + p.val; omega) (by show k.val = _ + k.val; omega),
      wblk_apply V c t (ix2 k s) (ix2 k s) (by show k.val = _ + k.val; omega) (by show s.val = _ + s.val; omega)]
  · exact bblk_apply V c t (ix2 (0 : Fin 1) s) (ix2 (0 : Fin 1) s) (by show (0 : ℕ) = _ + 0; omega) (by show s.val = _ + s.val; omega)

/-- What point `t` writes back is block `t` of rows-times-columns of the whole arrays. -/
theorem flushed_eq (c : Dev nD) (t : Fin cfg1.N) :
    (dat1 V c).flushed 3 t
      = ((cfg1.win 3).blk t).view.read (Elt Ideal) (Cert.Spec.rowsByCols (xarr V c) (warr V c) (barr V c)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x128) zero_offsets,
    View.ld_unit_zero (S := S1x128) zero_offsets]
  funext j
  show k1_pay1 (F := Ideal) (xblk V c t) (wblk V c t) (bblk V c t) j
    = Cert.Spec.rowsByCols (xarr V c) (warr V c) (barr V c) (((cfg1.win 3).blk t).view.emb j)
  refine point_eq V c t j _ ?_ ?_
  · show win1_3.index t (0 : Fin 2) * 5000 + 1 * (j 0).val = _; omega
  · show win1_3.index t (1 : Fin 2) * 128 + 1 * (j 1).val = _; omega

/-- An index of the output array is in point `t`'s block iff each coordinate is in the block's range on its axis. -/
theorem mem_block (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v67).slice (win1_3.rect t)).set ↔ _
  rw [View.set_slice_whole, Rect.mem_set_unit]
  exact Iff.rfl

/-- The ten blocks cover the output array: row `r` is in block `r / 5000`. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the region's run the output array is rows-times-columns of the arrays the region found. -/
theorem output_eq (c : Dev nD) :
    (dat1 V c).arrAt 3 cfg1.N = Cert.Spec.rowsByCols (V c main_v65) (V c main_arg3) (V c main_v66) :=
  (dat1 V c).arrAt_eq_of_cover 3 (Cert.Spec.rowsByCols (xarr V c) (warr V c) (barr V c)) (fun t _ => flushed_eq V c t) covered

end Cert.KernelIdeal.MatmulRegion

end
-- ==== Proof.ClampBridge.lean ====
/-
  The edge weights as the second stretch of host operations finds them are the clamped edge weights, and over real
  numbers the clamped weights are what the reference adds up: the raw weights plus the difference between the clamped and
  the raw ones.

  The kernel program pads the 1600000 weights with 512 zeros, lays them out as 12504 rows of 128, clamps every entry,
  lays the result out flat again and cuts the padding off. Clamping is entry by entry, so it commutes with the two changes
  of layout, which undo each other; and an entry below 1600000 of the padded array is the weight itself.

  For a real number r and any extended real c, r + (c - r) = c: the one law that joins the two programs here. It fails at
  an infinite r, which is why the weights' finiteness is needed.
-/
import Idealize.ShloMosaic.Lib.KernelVsHost
import Idealize.ShloMosaic.Lib.Pipeline.Value
import Idealize.ShloMosaic.Lib.ValueIdx
import proofs.«126264_j20074677141980_1_alg».proof.Proof.Spec
import proofs.«126264_j20074677141980_1_alg».proof.Proof.ClampRegion

noncomputable section

namespace Cert.ClampBridge

open Idealize.ShloMosaic Idealize.ShloMosaic.ValueIdx
open Cert.KernelIdeal.ClampRegion (clampAll)

/-- A real number plus the difference between any extended real and it is that extended real. -/
theorem coe_add_sub_cancel (r : ℝ) (c : EReal) : (r : EReal) + (c - r) = c := by
  induction c using EReal.rec with
  | bot => simp
  | coe x => norm_cast; ring
  | top => simp

/-- Over real weights, the raw weights plus the difference between the clamped and the raw ones are the clamped weights. -/
theorem reclamped_eq (e : FVec Ideal Cert.Spec.SE .f32) (hfin : ∀ i, ∃ r : ℝ, e i = (r : EReal)) :
    Cert.Spec.reclamped e = clampAll Cert.Spec.SE e := by
  funext i
  obtain ⟨r, hr⟩ := hfin i
  show e i + (min (Ideal.ofBits .f32 0x40A00000#32) (max (Ideal.ofBits .f32 0xC0000000#32) (e i)) - e i)
    = min (Ideal.ofBits .f32 0x40A00000#32) (max (Ideal.ofBits .f32 0xC0000000#32) (e i))
  rw [hr]
  exact coe_add_sub_cancel r _

abbrev SPad : Shape := ⟨1, ![1600512]⟩
abbrev SMat : Shape := ⟨2, ![12504, 128]⟩

/-- Pad, lay out as a matrix, clamp, lay out flat, cut the padding off: the clamp of the weights. -/
theorem unpad_clamp {F : FTy → Type} [FloatOps F] {u : Shape} (e : FVec F Cert.Spec.SE .f32) (z : FVec F u .f32)
    (hp : Cert.Spec.SE.Pads (![0] : Fin 1 → Nat) ![512] ![0] SPad) (hu : 0 < u.numel)
    (h1 : SPad.ShapeCasts SMat) (h2 : SMat.ShapeCasts SPad) (hs : SPad.Slices ![0] Cert.Spec.SE) :
    extractStridedSlice Cert.Spec.SE ![0]
        (shapeCast SPad (clampAll SMat (shapeCast SMat (pad SPad ![0] ![512] ![0] e z hp hu) h1)) h2) hs
      = clampAll Cert.Spec.SE e := by
  have hc : clampAll SMat (shapeCast SMat (pad SPad ![0] ![512] ![0] e z hp hu) h1)
      = shapeCast SMat (clampAll SPad (pad SPad ![0] ![512] ![0] e z hp hu)) h1 := rfl
  rw [hc, shapeCast_shapeCast]
  funext i
  obtain ⟨n, rfl⟩ : ∃ n : Fin 1600000, i = ix1 n := ⟨i 0, eq_ix1 i⟩
  have hn : n.val < 1600512 := by have := n.isLt; omega
  rw [extractStridedSlice_apply ![0] _ hs (ix1 n) (ix1 (⟨n.val, hn⟩ : Fin 1600512)) (fun a => by
    match a with
    | ⟨0, _⟩ => show n.val = 0 + n.val; omega)]
  show FloatOps.minimumf _ (FloatOps.maximumf _ (pad SPad ![0] ![512] ![0] e z hp hu (ix1 (⟨n.val, hn⟩ : Fin 1600512))))
    = FloatOps.minimumf _ (FloatOps.maximumf _ (e (ix1 n)))
  rw [pad_apply_of_inside ![0] ![512] ![0] e z hp hu (ix1 (⟨n.val, hn⟩ : Fin 1600512)) (ix1 n) (fun a => by
    match a with
    | ⟨0, _⟩ => show n.val = 0 + n.val * (0 + 1); omega)]
  rfl

end Cert.ClampBridge

end
-- ==== Proof.KValue.lean ====
/-
  The kernel program's result is the specification at the argument arrays, when the edge weights are real numbers.

  The result buffer holds what the second region's write-backs leave: rows-times-columns of the feature matrix, the
  weight matrix and the bias row as that region found them. The bias row is the argument bias as one row and the weight
  matrix the argument; the feature matrix is two propagation steps from the argument features over the argument edges
  with the edge weights the first region left, which are the clamped argument weights; and over real weights those are the
  re-clamped weights the specification propagates with.
-/
import proofs.«126264_j20074677141980_1_alg».proof.Proof.KRun
import proofs.«126264_j20074677141980_1_alg».proof.Proof.KHost
import proofs.«126264_j20074677141980_1_alg».proof.Proof.ClampRegion
import proofs.«126264_j20074677141980_1_alg».proof.Proof.MatmulRegion
import proofs.«126264_j20074677141980_1_alg».proof.Proof.ClampBridge
import proofs.«126264_j20074677141980_1_alg».proof.Proof.Affine

set_option maxRecDepth 16384

noncomputable section

namespace Cert.KernelIdeal.Result

open Cert.KernelIdeal Cert.KernelIdeal.Gen Idealize.ShloMosaic Idealize.ShloMosaic.TcCoe Idealize.SL.Sem
open Cert.KernelIdeal.ClampRegion (clampAll)

variable (m : (ℓ : Loc nD τ sig) → Buf (Elt Ideal) ℓ) (ρ : Dev nD → PrngReg)

/-- What the first region left, un-padded, is the clamp of the argument edge weights. -/
theorem clampedFlat_eq (c : Dev nD) :
    Cert.KernelIdeal.Host.clampedFlat m ρ c = clampAll (F := Ideal) S1600000 (m ((c.tc : Thread nD τ).loc main_arg2)) := by
  have h : W4 m ρ c (Proc.devRef .tc main_v2) = (dat0 (V3 m ρ) c).arrAt 1 cfg0.N := W4_arr m ρ c 1
  unfold Cert.KernelIdeal.Host.clampedFlat
  rw [h, Cert.KernelIdeal.ClampRegion.output_eq (V3 m ρ) c, Cert.KernelIdeal.Host.clamp_input m ρ c]
  exact Cert.ClampBridge.unpad_clamp _ _ _ _ _ _ _

/-- The result buffer's contents after the run are the specification at the arguments. -/
theorem result_eq (hfin : ∀ (c : Dev nD) i, ∃ r : ℝ, m ((c.tc : Thread nD τ).loc main_arg2) i = (r : EReal)) (c : Dev nD) :
    W10 m ρ c (Proc.devRef .tc main_v67)
      = Cert.Spec.result (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  have h : W10 m ρ c (Proc.devRef .tc main_v67) = (dat1 (V9 m ρ) c).arrAt 3 cfg1.N := W10_arr m ρ c 3
  rw [h, Cert.KernelIdeal.MatmulRegion.output_eq (V9 m ρ) c, Cert.KernelIdeal.Host.features m ρ c,
    Cert.KernelIdeal.Host.weights m ρ c, Cert.KernelIdeal.Host.bias m ρ c, clampedFlat_eq m ρ c,
    ← Cert.ClampBridge.reclamped_eq _ (hfin c)]
  exact (Cert.Spec.affine_eq_rowsByCols _ _ _ _).symm

end Cert.KernelIdeal.Result

end
-- ==== Proof.RefSide.lean ====
/-
  The reference program's result, read as the specification: two propagation steps over the re-clamped edge weights, then
  the affine layer. The generated run states the result as one composed term of the arguments; that term is the
  specification's, operation for operation.
-/
import proofs.«126264_j20074677141980_1_alg».proof.Proof.Gen.ReferenceIdeal.Run
import proofs.«126264_j20074677141980_1_alg».proof.Proof.Spec

noncomputable section

namespace Cert.ReferenceIdeal.AsSpec

open Cert.ReferenceIdeal Cert.ReferenceIdeal.Gen Idealize.ShloMosaic Idealize.ShloMosaic.TcCoe Idealize.SL.Sem

variable {F : FTy → Type} [FloatOps F]

set_option maxRecDepth 8192 in
/-- The run's result term is the specification at the argument arrays. -/
theorem res_eq (m : (ℓ : Loc nD τ sig) → Buf (Elt F) ℓ) (c : Dev nD) :
    Cert.ReferenceIdeal.Value.res_main_v67 m c
      = Cert.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold Cert.ReferenceIdeal.Value.res_main_v67
  rfl

end Cert.ReferenceIdeal.AsSpec

end
-- ==== Proof.Finite.lean ====
/-
  What the precondition says of the edge weights: every one is a real number.

  The precondition is the conjunction, over the four float arguments, of "every entry's absolute value is below +infinity".
  The conjunct for the edge weights, read at an entry, says the larger of the entry and its negation is below the top
  element; an extended real with that property is neither infinity, so it is a real number.
-/
import proofs.«126264_j20074677141980_1_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

instance : Subsingleton Cert.Pre_finite_inputs.S_.Idx := ⟨fun a b => funext fun d => d.elim0⟩

/-- An extended real whose absolute value compares below the pattern of +infinity is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every edge weight is a real number. -/
theorem edge_weights_real [Cert.Pre_finite_inputs.Facts]
    (a0 : FVec Ideal Cert.Pre_finite_inputs.S50000x128 .f32) (a1 : IVec Cert.Pre_finite_inputs.S2x1600000 32)
    (a2 : FVec Ideal Cert.Pre_finite_inputs.S1600000 .f32) (a3 : FVec Ideal Cert.Pre_finite_inputs.S128x128 .f32)
    (a4 : FVec Ideal Cert.Pre_finite_inputs.S128 .f32)
    (h : Cert.Pre_finite_inputs.fn (F := Ideal) a0 a1 a2 a3 a4 = fun _ => 1#1)
    (i : Cert.Pre_finite_inputs.S1600000.Idx) : ∃ r : ℝ, a2 i = (r : EReal) := by
  have h0 := congrFun h ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).2
  have h4 := Host.reduce_andi_all _ _ _ _ ix0 h3 i
  exact real_of_abs_lt_inf (a2 i) h4

end Cert.Finite

end
-- ==== Proof.lean ====
/-
  A two-hop simplified graph convolution on 50000 nodes with 128 features and 1600000 weighted edges, against its plain
  reference: both compute `P (P x) W + b`, where `P` is the propagation `D^(-1/2) (A + I) D^(-1/2)` built from the edge
  weights clamped to [-2, 5] and a unit self loop at every node.

  The two programs differ in two places. The first program clamps the weights in a kernel over the weights padded and
  laid out as a matrix; the reference adds to the raw weights the difference between the clamped and the raw ones. Over
  real weights these agree, by `r + (c - r) = c`, and that is where the precondition (every float input finite) is used:
  only the edge weights' finiteness is needed. The first program computes the final affine layer in a kernel over ten row
  blocks, from operands rounded to a narrower format; over the extended reals rounding is the identity, a block's rows
  depend only on the same rows of the features, and both products are the same sum over 128 terms. Everything between the
  clamp and the affine layer (degrees, their inverse square roots, the edges' coefficients, two propagation steps) is one
  function of the features, the edge list and the clamped weights, the same in both programs, and is never opened.

  So at the extended reals both programs end with `Spec.result` of the argument arrays in their result buffer. The
  kernel program's and its idealization's frames are the generated ones; the reference's is its generated run with the
  result dropped; the idealization rewrote nothing, so `preserves` has nothing to state.
-/
import proofs.«126264_j20074677141980_1_alg».proof.Defs
import proofs.«126264_j20074677141980_1_alg».proof.Proof.Gen.Kernel
import proofs.«126264_j20074677141980_1_alg».proof.Proof.Gen.Kernel.Skeleton
import proofs.«126264_j20074677141980_1_alg».proof.Proof.Gen.Kernel.Launch
import proofs.«126264_j20074677141980_1_alg».proof.Proof.Gen.Kernel.Points
import proofs.«126264_j20074677141980_1_alg».proof.Proof.Gen.Kernel.Frame
import proofs.«126264_j20074677141980_1_alg».proof.Proof.Gen.KernelIdeal
import proofs.«126264_j20074677141980_1_alg».proof.Proof.Gen.KernelIdeal.Skeleton
import proofs.«126264_j20074677141980_1_alg».proof.Proof.Gen.KernelIdeal.Launch
import proofs.«126264_j20074677141980_1_alg».proof.Proof.Gen.KernelIdeal.Points
import proofs.«126264_j20074677141980_1_alg».proof.Proof.Gen.KernelIdeal.Frame
import proofs.«126264_j20074677141980_1_alg».proof.Proof.Gen.ReferenceIdeal
import proofs.«126264_j20074677141980_1_alg».proof.Proof.Gen.ReferenceIdeal.Run
import proofs.«126264_j20074677141980_1_alg».proof.Proof.Gen.Pre_finite_inputs
import proofs.«126264_j20074677141980_1_alg».proof.Proof.KValue
import proofs.«126264_j20074677141980_1_alg».proof.Proof.RefSide
import proofs.«126264_j20074677141980_1_alg».proof.Proof.Finite
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification's result of the arguments: the kernel program by its two regions read as
    whole-array functions and the shared propagation between them, the reference by its run's term, the edge weights real
    by the precondition. -/
theorem algebraic : Cert.algebraic_KernelIdeal_ReferenceIdeal := by
  intro m ρ m' ρ' hpre hagree
  have hfin : ∀ (c : Dev Cert.KernelIdeal.nD) i, ∃ r : ℝ,
      m ((c.tc : Thread Cert.KernelIdeal.nD Cert.KernelIdeal.τ).loc Cert.KernelIdeal.main_arg2) i = (r : EReal) :=
    fun c i => Cert.Finite.edge_weights_real _ _ _ _ _ (hpre c) i
  refine ⟨fun c => Cert.Spec.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Result.result_eq m ρ hfin c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.AsSpec.res_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
